-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x4096 : Shape := ⟨3, ![2, 4096, 4096]⟩
abbrev S16384x4096 : Shape := ⟨2, ![16384, 4096]⟩
abbrev S_ : Shape := ⟨0, ![]⟩

class Facts : Prop where
  bcast_S_S2x4096x4096 : S_.BroadcastsInDim S2x4096x4096 (![] : Fin 0 → Fin S2x4096x4096.rank)
  reducesTo_S2x4096x4096_S_d0_1_2 : S2x4096x4096.ReducesTo [0, 1, 2] S_
  h_S_ : 0 < S_.numel
  bcast_S_S16384x4096 : S_.BroadcastsInDim S16384x4096 (![] : Fin 0 → Fin S16384x4096.rank)
  reducesTo_S16384x4096_S_d0_1 : S16384x4096.ReducesTo [0, 1] S_

variable [Facts]

def fn {F : FTy → Type} [FloatOps F] (main_arg0 : FVec F S2x4096x4096 .f32) (main_arg1 : FVec F S16384x4096 .f32) : IVec S_ 1 :=
  let main_v0 : FVec F S2x4096x4096 .f32 := Host.absf main_arg0
  let main_cst : FVec F S_ .f32 := constant S_ .f32 0x7F800000#32
  let main_v1 : FVec F S2x4096x4096 .f32 := broadcastInDim S2x4096x4096 ![] bcast_S_S2x4096x4096 main_cst
  let main_v2 : IVec S2x4096x4096 1 := cmpf .olt main_v0 main_v1
  let main_c : IVec S_ 1 := constantI S_ 1 1#1
  let main_v3 : IVec S_ 1 := (fun x v => Host.reduce IntOp.andi x v reducesTo_S2x4096x4096_S_d0_1_2 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  main_v8
-- ==== Kernel.lean ====
abbrev S2x4096x4096 : Shape := ⟨3, ![2, 4096, 4096]⟩
abbrev S16384x4096 : Shape := ⟨2, ![16384, 4096]⟩
abbrev S8192x4096 : Shape := ⟨2, ![8192, 4096]⟩
abbrev S8192x16384 : Shape := ⟨2, ![8192, 16384]⟩
abbrev S1024x1024 : Shape := ⟨2, ![1024, 1024]⟩
abbrev S2048x1024 : Shape := ⟨2, ![2048, 1024]⟩
abbrev S1024x2048 : Shape := ⟨2, ![1024, 2048]⟩
abbrev S2x4096x16384 : Shape := ⟨3, ![2, 4096, 16384]⟩

abbrev nBuf : Space → Nat
  | .hbm => 8
  | .vmem => 7
  | .smem => 0
  | _ => 0

abbrev bufTy : (tb : Table) → Fin (tcTables nBuf tb) → BufTy
  | .hbm, ⟨0, _⟩ => ⟨S2x4096x4096, .f32⟩
  | .hbm, ⟨1, _⟩ => ⟨S16384x4096, .f32⟩
  | .hbm, ⟨2, _⟩ => ⟨S8192x4096, .f32⟩
  | .hbm, ⟨3, _⟩ => ⟨S8192x4096, .bf16⟩
  | .hbm, ⟨4, _⟩ => ⟨S16384x4096, .f32⟩
  | .hbm, ⟨5, _⟩ => ⟨S16384x4096, .bf16⟩
  | .hbm, ⟨6, _⟩ => ⟨S8192x16384, .f32⟩
  | .hbm, ⟨7, _⟩ => ⟨S2x4096x16384, .f32⟩
  | .local _ .vmem, ⟨0, _⟩ => ⟨S1024x1024, .bf16⟩
  | .local _ .vmem, ⟨1, _⟩ => ⟨S1024x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  shapeCasts_S2x4096x4096_S8192x4096 : S2x4096x4096.ShapeCasts S8192x4096
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  shapeCasts_S8192x16384_S2x4096x16384 : S8192x16384.ShapeCasts S2x4096x16384
  dot_S1024x1024_S2048x1024_S1024x2048_1_1_0_0_n_n_wf : DotDims.WF S1024x1024 S2048x1024 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S16384x4096.size a
  hwx0_1 : ∀ i : grid0.Coords, EltTy.bits .bf16 = 32 ∨ (Rect.block (s := S16384x4096) S2048x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S8192x16384.size a
  hwx0_2 : ∀ i : grid0.Coords, EltTy.bits .f32 = 32 ∨ (Rect.block (s := S8192x16384) S1024x2048.size (cc0_transform_2 i) (hinb0_2 i)).WholeWords (EltTy.packing .f32)

variable [Facts₀]

def dot_S1024x1024_S2048x1024_S1024x2048_1_1_0_0_n_n : DotDims S1024x1024 S2048x1024 S1024x2048 where
  lhsContracting := [1]
  rhsContracting := [1]
  lhsNonContracting := [0]
  rhsNonContracting := [0]
  lhsBatch := []
  rhsBatch := []
  wf := dot_S1024x1024_S2048x1024_S1024x2048_1_1_0_0_n_n_wf

abbrev win0_0 : Pipeline.Window sig grid0 :=
  Pipeline.Window.ofSpec (Memref.whole main_v1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S2x4096x4096 : Shape := ⟨3, ![2, 4096, 4096]⟩
abbrev S16384x4096 : Shape := ⟨2, ![16384, 4096]⟩
abbrev S2x4096x16384 : Shape := ⟨3, ![2, 4096, 16384]⟩

abbrev nBuf : Space → Nat
  | .hbm => 4
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S16384x4096, .f32⟩
  | .hbm, ⟨2, _⟩ => ⟨S16384x4096, .f32⟩
  | .hbm, ⟨3, _⟩ => ⟨S2x4096x16384, .f32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  dot_S2x4096x4096_S16384x4096_S2x4096x16384_2_1_01_0_n_n_wf : DotDims.WF S2x4096x4096 S16384x4096 S2x4096x16384 [2] [1] [0, 1] [0] [] []

variable [Facts₀]

def dot_S2x4096x4096_S16384x4096_S2x4096x16384_2_1_01_0_n_n : DotDims S2x4096x4096 S16384x4096 S2x4096x16384 where
  lhsContracting := [2]
  rhsContracting := [1]
  lhsNonContracting := [0, 1]
  rhsNonContracting := [0]
  lhsBatch := []
  rhsBatch := []
  wf := dot_S2x4096x4096_S16384x4096_S2x4096x16384_2_1_01_0_n_n_wf

class Facts : Prop extends Facts₀ where

variable [Facts]
-- ==== Proof.Pieces.lean ====
/-
  What each control case of the kernel body leaves behind, as a value.

  The body first resets the accumulator to zero at the first column block, then adds the block product to it, and at
  the last column block copies it to the output block. So whichever case a grid point is in, the accumulator ends at
  `k0_pay2 x0 x1 s` — the old accumulator `s` plus the product of the two input blocks — where `s` is the zero block
  `k0_pay1` in the resetting case and what the point before left otherwise; and in the copying case the output block
  ends at that same value.
-/
import proofs.«168095_j31825707663462_1_alg».proof.Proof.Gen.KernelIdeal.Frame
import Idealize.ShloMosaic.Lib.Pipeline.Value
import Idealize.ShloMosaic.Lib.Tactic

set_option maxRecDepth 16384

noncomputable section

namespace Cert.KernelIdeal.Pieces

open Idealize.ShloMosaic Idealize.ShloMosaic.TcCoe Idealize.SL.Sem
open Cert.KernelIdeal Cert.KernelIdeal.Gen

variable {F : FTy → Type} [FloatOps F]

theorem hz : (![0, 0] : Fin 2 → Nat) = fun _ => 0 := funext fun a => by fin_cases a <;> rfl

/-- Resetting case (first column block): the accumulator is set to the zero block, read back, and ends at the zero
    block plus the block product, whatever it held before. -/
theorem scratch_A (c : Dev nD) (i : grid0.Coords) (a3 : Memref sig .tc .vmem S1024x1024 .bf16) (h3 : a3.IsWhole) (a4 : Memref sig .tc .vmem S2048x1024 .bf16) (h4 : a4.IsWhole) (a5 : Memref sig .tc .vmem S1024x2048 .f32) (h5 : a5.IsWhole) (a6 : Memref sig .tc .vmem S1024x2048 .f32) (h6 : a6.IsWhole) (hc0 : cond0_0 i) (hc1 : ¬cond0_1 i)
    (x0 : Vec F S1024x1024 .bf16) (x1 : Vec F S2048x1024 .bf16) :
    sout0_A_0 c i a3 h3 a4 h4 a5 h5 a6 h6 hc0 hc1 x0 x1 = k0_pay2 x0 x1 (k0_pay1 (F := F)) := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x2048) hz, View.readCov_unit_zero (S := S1024x2048) _ hz]
  simp only [View.readAt_eq_ld, h3.read_unread, h4.read_unread, h6.read_unread, View.ld_unit_zero (S := S1024x1024) hz, View.ld_unit_zero (S := S2048x1024) hz, View.ld_unit_zero (S := S1024x2048) hz]

/-- Accumulating case (a middle column block): the accumulator, found at `xs0`, ends at `xs0` plus the block product. -/
theorem scratch_B (c : Dev nD) (i : grid0.Coords) (a3 : Memref sig .tc .vmem S1024x1024 .bf16) (h3 : a3.IsWhole) (a4 : Memref sig .tc .vmem S2048x1024 .bf16) (h4 : a4.IsWhole) (a5 : Memref sig .tc .vmem S1024x2048 .f32) (h5 : a5.IsWhole) (a6 : Memref sig .tc .vmem S1024x2048 .f32) (h6 : a6.IsWhole) (hc0 : ¬cond0_0 i) (hc1 : ¬cond0_1 i)
    (x0 : Vec F S1024x1024 .bf16) (x1 : Vec F S2048x1024 .bf16) (xs0 : Vec F S1024x2048 .f32) :
    sout0_B_0 c i a3 h3 a4 h4 a5 h5 a6 h6 hc0 hc1 x0 x1 xs0 = k0_pay2 x0 x1 xs0 := by
  unfold sout0_B_0
  rw [View.read_writes_eq_canon _ _ _ (scover0_B_0 c i a3 h3 a4 h4 a5 h5 a6 h6 hc0 hc1 x0 x1 xs0)]
  unfold kernelRun0_B
  dsimp only
  sl_unfold_words
  rw [View.canon_unit_zero hz]
  simp only [View.readAt_eq_ld, h3.read_unread, h4.read_unread, h6.read_unread, View.ld_unit_zero (S := S1024x1024) hz, View.ld_unit_zero (S := S2048x1024) hz, View.ld_unit_zero (S := S1024x2048) hz]

/-- Copying case (last column block): the accumulator ends, as in the accumulating case, at `xs0` plus the block product; -/
theorem scratch_C (c : Dev nD) (i : grid0.Coords) (a3 : Memref sig .tc .vmem S1024x1024 .bf16) (h3 : a3.IsWhole) (a4 : Memref sig .tc .vmem S2048x1024 .bf16) (h4 : a4.IsWhole) (a5 : Memref sig .tc .vmem S1024x2048 .f32) (h5 : a5.IsWhole) (a6 : Memref sig .tc .vmem S1024x2048 .f32) (h6 : a6.IsWhole) (hc0 : ¬cond0_0 i) (hc1 : cond0_1 i)
    (x0 : Vec F S1024x1024 .bf16) (x1 : Vec F S2048x1024 .bf16) (xs0 : Vec F S1024x2048 .f32) :
    sout0_C_0 c i a3 h3 a4 h4 a5 h5 a6 h6 hc0 hc1 x0 x1 xs0 = k0_pay2 x0 x1 xs0 := by
  unfold sout0_C_0
  rw [View.read_writes_eq_canon _ _ _ (scover0_C_0 c i a3 h3 a4 h4 a5 h5 a6 h6 hc0 hc1 x0 x1 xs0)]
  unfold kernelRun0_C
  dsimp only
  sl_unfold_words
  rw [View.canon_unit_zero hz]
  simp only [View.readAt_eq_ld, h3.read_unread, h4.read_unread, h6.read_unread, View.ld_unit_zero (S := S1024x1024) hz, View.ld_unit_zero (S := S2048x1024) hz, View.ld_unit_zero (S := S1024x2048) hz]

/-- and the output block is the accumulator read back after that store: the same value. -/
theorem out_C (c : Dev nD) (i : grid0.Coords) (a3 : Memref sig .tc .vmem S1024x1024 .bf16) (h3 : a3.IsWhole) (a4 : Memref sig .tc .vmem S2048x1024 .bf16) (h4 : a4.IsWhole) (a5 : Memref sig .tc .vmem S1024x2048 .f32) (h5 : a5.IsWhole) (a6 : Memref sig .tc .vmem S1024x2048 .f32) (h6 : a6.IsWhole) (hc0 : ¬cond0_0 i) (hc1 : cond0_1 i)
    (x0 : Vec F S1024x1024 .bf16) (x1 : Vec F S2048x1024 .bf16) (xs0 : Vec F S1024x2048 .f32) :
    out0_C_2 c i a3 h3 a4 h4 a5 h5 a6 h6 hc0 hc1 x0 x1 xs0 = k0_pay2 x0 x1 xs0 := by
  unfold out0_C_2
  rw [View.read_writes_eq_canon _ _ _ (cover0_C_2 c i a3 h3 a4 h4 a5 h5 a6 h6 hc0 hc1 x0 x1 xs0)]
  unfold kernelRun0_C
  dsimp only
  sl_unfold_words
  rw [View.canon_unit_zero hz]
  simp only [View.readCov_unit_zero (S := S1024x2048) _ hz, View.readAt_eq_ld, h3.read_unread, h4.read_unread, h6.read_unread, View.ld_unit_zero (S := S1024x1024) hz, View.ld_unit_zero (S := S2048x1024) hz, View.ld_unit_zero (S := S1024x2048) hz]

end Cert.KernelIdeal.Pieces

end
-- ==== Proof.Fold.lean ====
/-
  The accumulator after each grid point, as one recursion.

  The grid is walked with the column-block coordinate fastest, so the points come in runs of four with the same
  output block: at the first point of a run (position ≡ 0 mod 4) the accumulator restarts from the zero block, at the
  others it continues from what the point before left, and every point adds the product of its two input blocks.
  `accAt` is that recursion; the accumulator the frame run carries from point to point is `accAt`, and at the last
  point of each run (position ≡ 3 mod 4) so is the output block.
-/
import proofs.«168095_j31825707663462_1_alg».proof.Proof.Pieces

noncomputable section

namespace Cert.KernelIdeal.Fold

open Idealize.ShloMosaic Idealize.ShloMosaic.TcCoe Idealize.SL.Sem
open Cert.KernelIdeal Cert.KernelIdeal.Gen Cert.KernelIdeal.Pieces

variable {F : FTy → Type} [FloatOps F]
variable (m : (ℓ : Loc nD τ sig) → Buf (Elt F) ℓ)

/-- The left operand's block at point `t`, -/
abbrev xblk (c : Dev nD) (t : Fin cfg0.N) : Vec F S1024x1024 .bf16 := iblk m c 0 t
/-- and the right operand's. -/
abbrev wblk (c : Dev nD) (t : Fin cfg0.N) : Vec F S2048x1024 .bf16 := iblk m c 1 t

/-- The accumulator after the point at position `n`. -/
def accAt (c : Dev nD) : (n : ℕ) → n < cfg0.N → Vec F S1024x2048 .f32
  | 0, h => k0_pay2 (xblk m c ⟨0, h⟩) (wblk m c ⟨0, h⟩) (k0_pay1 (F := F))
  | n + 1, h => k0_pay2 (xblk m c ⟨n + 1, h⟩) (wblk m c ⟨n + 1, h⟩)
      (if (n + 1) % 4 = 0 then k0_pay1 (F := F) else accAt c n (Nat.lt_of_succ_lt h))

theorem accAt_succ (c : Dev nD) (n : ℕ) (h : n + 1 < cfg0.N) :
    accAt m c (n + 1) h = k0_pay2 (xblk m c ⟨n + 1, h⟩) (wblk m c ⟨n + 1, h⟩)
      (if (n + 1) % 4 = 0 then k0_pay1 (F := F) else accAt m c n (Nat.lt_of_succ_lt h)) := rfl

/-- What the frame run carries in the scratch after position `n` is `accAt`: by induction on the position, one case
    of the body per residue of the position modulo 4. -/
theorem scratch_eq (c : Dev nD) : ∀ (n : ℕ) (h : n < cfg0.N), (outsAt0 m c n h).2 = accAt m c n h
  | 0, h => by
    rw [outsAt0_A m c ⟨0, h⟩ rfl (show ¬(0 : ℕ) % 4 = 3 by decide)]
    dsimp only
    rw [scratch_A]
    rfl
  | n + 1, h => by
    rw [accAt_succ]
    by_cases h0 : (n + 1) % 4 = 0
    · have h1 : ¬(n + 1) % 4 = 3 := by omega
      rw [outsAt0_A m c ⟨n + 1, h⟩ h0 h1]
      dsimp only
      rw [scratch_A, if_pos h0]
    · rw [if_neg h0, ← scratch_eq c n]
      by_cases h1 : (n + 1) % 4 = 3
      · rw [outsAt0_C m c ⟨n + 1, h⟩ h0 h1]
        dsimp only
        rw [scratch_C]
        rfl
      · rw [outsAt0_B m c ⟨n + 1, h⟩ h0 h1]
        dsimp only
        rw [scratch_B]
        rfl

/-- At the last point of a run the output block is the accumulator. -/
theorem out_eq (c : Dev nD) (t : Fin cfg0.N) (h3 : t.val % 4 = 3) :
    (outsAt0 m c t.val t.isLt).1 = accAt m c t.val t.isLt := by
  have h0 : ¬t.val % 4 = 0 := by omega
  rw [← scratch_eq m c t.val t.isLt, outsAt0_C m c t h0 h3]
  dsimp only
  rw [out_C, scratch_C]

end Cert.KernelIdeal.Fold

end
-- ==== Proof.BlockedSum.lean ====
/-
  A sum over `bs * nb` consecutive naturals is the sum, over `nb` consecutive blocks of `bs` naturals, of each
  block's sum. Only associativity and commutativity of the addition are used, so the law holds on the extended
  reals at every input, infinite ones included.
-/
import Mathlib.Algebra.BigOperators.Group.Finset.Basic
import Mathlib.Data.Fintype.BigOperators

namespace Cert.BlockedSum

open Finset

variable {M : Type*} [AddCommMonoid M]

/-- Blocks `0, …, nb - 1`, each of `bs` consecutive terms, together are the first `bs * nb` terms. -/
theorem sum_range_blocks (f : ℕ → M) (bs : ℕ) : ∀ nb : ℕ,
    ∑ kb ∈ range nb, ∑ kk ∈ range bs, f (bs * kb + kk) = ∑ k ∈ range (bs * nb), f k
  | 0 => by simp
  | nb + 1 => by
    rw [sum_range_succ, sum_range_blocks f bs nb, Nat.mul_succ, sum_range_add]

/-- The same with each block's sum and the whole sum taken over `Fin`. -/
theorem sum_fin_blocks (f : ℕ → M) (bs nb : ℕ) :
    ∑ kb ∈ range nb, ∑ kk : Fin bs, f (bs * kb + kk.val) = ∑ k : Fin (bs * nb), f k.val := by
  rw [Fin.sum_univ_eq_sum_range f (bs * nb), ← sum_range_blocks f bs nb]
  exact sum_congr rfl fun kb _ => Fin.sum_univ_eq_sum_range (fun kk => f (bs * kb + kk)) bs

end Cert.BlockedSum
-- ==== Proof.Spec.lean ====
/-
  The mathematics of the ternary linear layer, with no program in sight.

  For a left array `X` of shape [8192, 4096] and a right array `W` of shape [16384, 4096] over the extended reals,
  entry `(r, o)` of `X · Wᵀ` is the sum over the 4096 columns `k` of `X (r, k) * W (o, k)`. Cut the columns into
  four consecutive blocks of 1024: `part X W r o kb` is block `kb`'s share of that sum, and `acc X W r o n` the sum of
  the first `n` shares. `acc` starts at zero, grows by one share per step, and after four steps is the whole sum.
-/
import Idealize.ShloMosaic.Lib.ValueIdx
import proofs.«168095_j31825707663462_1_alg».proof.Proof.BlockedSum

noncomputable section

namespace Cert.Spec

open Idealize.ShloMosaic Idealize.ShloMosaic.ValueIdx

/-- Column `1024 * kb + kk` of the contracted axis (reduced modulo 4096, so that the function is total; for
    `kb < 4` and `kk < 1024` the reduction changes nothing). -/
def kcol (kb kk : ℕ) : Fin 4096 := ⟨(1024 * kb + kk) % 4096, Nat.mod_lt _ (by norm_num)⟩

theorem kcol_val (kb kk : ℕ) (hb : kb < 4) (hk : kk < 1024) : (kcol kb kk).val = 1024 * kb + kk := by
  show (1024 * kb + kk) % 4096 = _
  omega

variable (X : (⟨2, ![8192, 4096]⟩ : Shape).Idx → EReal) (W : (⟨2, ![16384, 4096]⟩ : Shape).Idx → EReal)

/-- Column block `kb`'s share of entry `(r, o)` of `X · Wᵀ`. -/
def part (r : Fin 8192) (o : Fin 16384) (kb : ℕ) : EReal :=
  ∑ kk : Fin 1024, X (ix2 r (kcol kb kk.val)) * W (ix2 o (kcol kb kk.val))

/-- The first `n` column blocks' shares of entry `(r, o)`, added up. -/
def acc (r : Fin 8192) (o : Fin 16384) (n : ℕ) : EReal := ∑ kb ∈ Finset.range n, part X W r o kb

theorem acc_zero (r : Fin 8192) (o : Fin 16384) : acc X W r o 0 = 0 := Finset.sum_range_zero _

theorem acc_succ (r : Fin 8192) (o : Fin 16384) (n : ℕ) : acc X W r o (n + 1) = acc X W r o n + part X W r o n :=
  Finset.sum_range_succ _ _

/-- Row `1024 * i + p` of the left array: row `p` of its row block `i` (total by reduction modulo 8192). -/
def rowOf (i p : ℕ) : Fin 8192 := ⟨(1024 * i + p) % 8192, Nat.mod_lt _ (by norm_num)⟩

/-- Row `2048 * j + q` of the right array: row `q` of its row block `j` (total by reduction modulo 16384). -/
def colOf (j q : ℕ) : Fin 16384 := ⟨(2048 * j + q) % 16384, Nat.mod_lt _ (by norm_num)⟩

/-- A [1024, 1024] block of the left array (row block `i`, column block `k`) against a [2048, 1024] block of the
    right array (row block `j`, column block `k`), contracted along their second axes, is column block `k`'s share of
    the entries they meet at. -/
theorem block_dot (x0 : (⟨2, ![1024, 1024]⟩ : Shape).Idx → EReal) (x1 : (⟨2, ![2048, 1024]⟩ : Shape).Idx → EReal)
    (i j k : ℕ)
    (hx0 : ∀ (p kk : Fin 1024), x0 (ix2 p kk) = X (ix2 (rowOf i p.val) (kcol k kk.val)))
    (hx1 : ∀ (q : Fin 2048) (kk : Fin 1024), x1 (ix2 q kk) = W (ix2 (colOf j q.val) (kcol k kk.val)))
    (p : Fin 1024) (q : Fin 2048) :
    ∑ kk : Fin 1024, x0 (ix2 p kk) * x1 (ix2 q kk) = part X W (rowOf i p.val) (colOf j q.val) k := by
  unfold part
  exact Finset.sum_congr rfl fun kk _ => by rw [hx0, hx1]

/-- Entry `(r, o)` of `X · Wᵀ`: the sum over all 4096 columns. -/
def whole (r : Fin 8192) (o : Fin 16384) : EReal := ∑ k : Fin 4096, X (ix2 r k) * W (ix2 o k)

/-- Four column blocks of 1024 are all 4096 columns. -/
theorem acc_four (r : Fin 8192) (o : Fin 16384) : acc X W r o 4 = whole X W r o := by
  have h := Cert.BlockedSum.sum_fin_blocks
    (fun k : ℕ => X (ix2 r ⟨k % 4096, Nat.mod_lt _ (by norm_num)⟩) * W (ix2 o ⟨k % 4096, Nat.mod_lt _ (by norm_num)⟩)) 1024 4
  refine Eq.trans h ?_
  show ∑ k : Fin 4096, _ = _
  refine Finset.sum_congr rfl fun k _ => ?_
  have e : (⟨k.val % 4096, Nat.mod_lt _ (by norm_num)⟩ : Fin 4096) = k := Fin.ext (Nat.mod_eq_of_lt k.isLt)
  simp only [e]

end Cert.Spec

end
-- ==== Proof.Blocks.lean ====
/-
  Where the blocks sit.

  Position `n` of the grid is the point (n / 32, (n / 4) % 8, n % 4): row block, output column block, contracted
  column block. There the left window holds rows 1024·(n/32) … of the left array and columns 1024·(n%4) …, the right
  window rows 2048·((n/4)%8) … of the right array and the same columns, and the output window the block of rows
  1024·(n/32) … and columns 2048·((n/4)%8) … of the result. The left array is the first argument with its two leading
  axes merged (its change of float format is the identity over the extended reals); the right array is the sign of the
  second argument.
-/
import proofs.«168095_j31825707663462_1_alg».proof.Proof.Fold
import proofs.«168095_j31825707663462_1_alg».proof.Proof.Spec
import Idealize.ShloMosaic.Lib.StableHlo.Run

noncomputable section

namespace Cert.KernelIdeal.Blocks

open Idealize.ShloMosaic Idealize.ShloMosaic.TcCoe Idealize.SL.Sem Idealize.ShloMosaic.ValueIdx
open Cert.KernelIdeal Cert.KernelIdeal.Gen Cert.KernelIdeal.Fold

variable {F : FTy → Type} [FloatOps F]
variable (m : (ℓ : Loc nD τ sig) → Buf (Elt F) ℓ)

/-- The left array as the region finds it, -/
abbrev xarr (c : Dev nD) : Vec F S8192x4096 .bf16 := V m c main_v1
/-- and the right array. -/
abbrev warr (c : Dev nD) : Vec F S16384x4096 .bf16 := V m c main_v3

/-- The three windows' block indices at every grid point, decided over the grid. -/
theorem idx_facts : ∀ t : Fin cfg0.N,
    win0_0.index t (0 : Fin 2) = t.val / 32 ∧ win0_0.index t (1 : Fin 2) = t.val % 4
    ∧ win0_1.index t (0 : Fin 2) = (t.val / 4) % 8 ∧ win0_1.index t (1 : Fin 2) = t.val % 4
    ∧ win0_2.index t (0 : Fin 2) = t.val / 32 ∧ win0_2.index t (1 : Fin 2) = (t.val / 4) % 8 :=
  (by decide +kernel : ∀ t : Fin grid0.N, _)

theorem lt_N (t : Fin cfg0.N) : t.val < 256 := lt_of_lt_of_eq t.isLt (show cfg0.N = 256 from N_0)

/-- Entry `(p, kk)` of the left block at point `t` is the left array's entry in row block `t / 32`, column block `t % 4`. -/
theorem xblk_at (c : Dev nD) (t : Fin cfg0.N) (p kk : Fin 1024) :
    xblk m c t (ix2 p kk) = xarr m c (ix2 (Cert.Spec.rowOf (t.val / 32) p.val) (Cert.Spec.kcol (t.val % 4) kk.val)) := by
  obtain ⟨e0, e1, -, -, -, -⟩ := idx_facts t
  have hN := lt_N t
  unfold xblk iblk
  rw [View.read_apply]
  show V m c main_v1 _ = V m c main_v1 _
  congr 1
  funext a
  apply Fin.ext
  match a with
  | ⟨0, _⟩ => show win0_0.index t (0 : Fin 2) * 1024 + 1 * p.val = (1024 * (t.val / 32) + p.val) % 8192; rw [e0]; omega
  | ⟨1, _⟩ => show win0_0.index t (1 : Fin 2) * 1024 + 1 * kk.val = (1024 * (t.val % 4) + kk.val) % 4096; rw [e1]; omega

/-- Entry `(q, kk)` of the right block at point `t` is the right array's entry in row block `(t / 4) % 8`, column block `t % 4`. -/
theorem wblk_at (c : Dev nD) (t : Fin cfg0.N) (q : Fin 2048) (kk : Fin 1024) :
    wblk m c t (ix2 q kk) = warr m c (ix2 (Cert.Spec.colOf ((t.val / 4) % 8) q.val) (Cert.Spec.kcol (t.val % 4) kk.val)) := by
  obtain ⟨-, -, e0, e1, -, -⟩ := idx_facts t
  have hN := lt_N t
  unfold wblk iblk
  rw [View.read_apply]
  show V m c main_v3 _ = V m c main_v3 _
  congr 1
  funext a
  apply Fin.ext
  match a with
  | ⟨0, _⟩ => show win0_1.index t (0 : Fin 2) * 2048 + 1 * q.val = (2048 * ((t.val / 4) % 8) + q.val) % 16384; rw [e0]; omega
  | ⟨1, _⟩ => show win0_1.index t (1 : Fin 2) * 1024 + 1 * kk.val = (1024 * (t.val % 4) + kk.val) % 4096; rw [e1]; omega

/-- The host lines before the region leave, in the left array, the first argument reshaped and narrowed; -/
theorem xarr_eq (c : Dev nD) :
    xarr m c = truncf .bf16 (shapeCast S8192x4096 (m ((c : Thread nD τ).loc main_arg0)) shapeCasts_S2x4096x4096_S8192x4096) bitsLt_bf16_f32 := by
  show StableHlo.after hostOps0 (fun b => m (c, b)) (Proc.devRef .tc main_v1) = _
  after_results
  rfl

/-- and in the right array the sign of the second argument, narrowed. -/
theorem warr_eq (c : Dev nD) :
    warr m c = truncf .bf16 (Host.sign (m ((c : Thread nD τ).loc main_arg1))) bitsLt_bf16_f32 := by
  show StableHlo.after hostOps0 (fun b => m (c, b)) (Proc.devRef .tc main_v3) = _
  after_results

end Cert.KernelIdeal.Blocks

end
-- ==== Proof.Payload.lean ====
/-
  The body's arithmetic at one entry, over the extended reals.

  The accumulating store writes `s + a · bᵀ`: entry `(p, q)` of it is the old accumulator's entry plus the sum over
  the 1024 shared columns `kk` of `a (p, kk) * b (q, kk)` — the product into a zero accumulator is just that sum —
  and the resetting store writes the zero block.
-/
import proofs.«168095_j31825707663462_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Payload

open Idealize.ShloMosaic Idealize.ShloMosaic.TcCoe Idealize.ShloMosaic.ValueIdx
open Cert.KernelIdeal Cert.KernelIdeal.Gen

/-- The left operand's row is the output's row; -/
theorem lhs_axis0 (i : S1024x2048.Idx) (q : dot_S1024x1024_S2048x1024_S1024x2048_1_1_0_0_n_n.contr.Idx) :
    (dot_S1024x1024_S2048x1024_S1024x2048_1_1_0_0_n_n.lhsIdx i q 0).val = (i 0).val := by
  unfold DotDims.lhsIdx
  rw [dif_neg (show ¬(0 : Fin S1024x1024.rank) ∈ dot_S1024x1024_S2048x1024_S1024x2048_1_1_0_0_n_n.lhsBatch by decide), dif_pos (show (0 : Fin S1024x1024.rank) ∈ dot_S1024x1024_S2048x1024_S1024x2048_1_1_0_0_n_n.lhsNonContracting by decide)]
  rfl
/-- its column is the contracted one. -/
theorem lhs_axis1 (i : S1024x2048.Idx) (q : dot_S1024x1024_S2048x1024_S1024x2048_1_1_0_0_n_n.contr.Idx) :
    (dot_S1024x1024_S2048x1024_S1024x2048_1_1_0_0_n_n.lhsIdx i q 1).val = (q ⟨0, by decide⟩).val :=
  dot_S1024x1024_S2048x1024_S1024x2048_1_1_0_0_n_n.lhsIdx_val_of_single rfl i q
/-- The right operand's row is the output's column; -/
theorem rhs_axis0 (i : S1024x2048.Idx) (q : dot_S1024x1024_S2048x1024_S1024x2048_1_1_0_0_n_n.contr.Idx) :
    (dot_S1024x1024_S2048x1024_S1024x2048_1_1_0_0_n_n.rhsIdx i q 0).val = (i 1).val := by
  unfold DotDims.rhsIdx
  rw [dif_neg (show ¬(0 : Fin S2048x1024.rank) ∈ dot_S1024x1024_S2048x1024_S1024x2048_1_1_0_0_n_n.rhsBatch by decide), dif_pos (show (0 : Fin S2048x1024.rank) ∈ dot_S1024x1024_S2048x1024_S1024x2048_1_1_0_0_n_n.rhsNonContracting by decide)]
  rfl
/-- its column is the contracted one. -/
theorem rhs_axis1 (i : S1024x2048.Idx) (q : dot_S1024x1024_S2048x1024_S1024x2048_1_1_0_0_n_n.contr.Idx) :
    (dot_S1024x1024_S2048x1024_S1024x2048_1_1_0_0_n_n.rhsIdx i q 1).val = (q ⟨0, by decide⟩).val :=
  dot_S1024x1024_S2048x1024_S1024x2048_1_1_0_0_n_n.rhsIdx_val_of_single rfl i q

/-- The block product into a zero accumulator, at entry `(p, q)`: the sum over the shared columns. -/
theorem matmul_at (x0 : FVec Ideal S1024x1024 .bf16) (x1 : FVec Ideal S2048x1024 .bf16) (p : Fin 1024) (q : Fin 2048) :
    matmul (F := Ideal) dot_S1024x1024_S2048x1024_S1024x2048_1_1_0_0_n_n none x0 x1 (constant (F := Ideal) S1024x2048 .f32 0x00000000#32) (ix2 p q)
      = ∑ kk : Fin 1024, x0 (ix2 p kk) * x1 (ix2 q kk) := by
  simp only [matmul]
  rw [Ideal.matmul_constant_zero_apply, ← Equiv.sum_comp (contrEquiv1 dot_S1024x1024_S2048x1024_S1024x2048_1_1_0_0_n_n 1024 rfl rfl).symm]
  refine Finset.sum_congr rfl fun k _ => ?_
  have hk := contrEquiv1_symm_val dot_S1024x1024_S2048x1024_S1024x2048_1_1_0_0_n_n 1024 rfl rfl k
  have el : dot_S1024x1024_S2048x1024_S1024x2048_1_1_0_0_n_n.lhsIdx (ix2 p q) ((contrEquiv1 dot_S1024x1024_S2048x1024_S1024x2048_1_1_0_0_n_n 1024 rfl rfl).symm k) = ix2 p k := funext fun a => Fin.ext (by
    match a with
    | ⟨0, _⟩ => exact lhs_axis0 _ _
    | ⟨1, _⟩ => exact (lhs_axis1 _ _).trans hk)
  have er : dot_S1024x1024_S2048x1024_S1024x2048_1_1_0_0_n_n.rhsIdx (ix2 p q) ((contrEquiv1 dot_S1024x1024_S2048x1024_S1024x2048_1_1_0_0_n_n 1024 rfl rfl).symm k) = ix2 q k := funext fun a => Fin.ext (by
    match a with
    | ⟨0, _⟩ => exact rhs_axis0 _ _
    | ⟨1, _⟩ => exact (rhs_axis1 _ _).trans hk)
  rw [el, er]

/-- The accumulating store's value at entry `(p, q)`. -/
theorem pay2_at (x0 : Vec Ideal S1024x1024 .bf16) (x1 : Vec Ideal S2048x1024 .bf16) (xs : Vec Ideal S1024x2048 .f32)
    (p : Fin 1024) (q : Fin 2048) :
    k0_pay2 (F := Ideal) x0 x1 xs (ix2 p q) = xs (ix2 p q) + ∑ kk : Fin 1024, x0 (ix2 p kk) * x1 (ix2 q kk) := by
  unfold k0_pay2
  simp only [shapeCast_self]
  exact congrArg (xs (ix2 p q) + ·) (matmul_at x0 x1 p q)

/-- The resetting store's value at every entry: zero. -/
theorem pay1_at (j : S1024x2048.Idx) : k0_pay1 (F := Ideal) j = 0 := by
  unfold k0_pay1
  simp only [shapeCast_self]
  exact Ideal.ofBits_zero_f32

end Cert.KernelIdeal.Payload

end
-- ==== Proof.Linear.lean ====
/-
  The layer as one function: for `x` of shape [2, 4096, 4096] and `w` of shape [16384, 4096] over the extended reals,
  entry `(b, s, o)` of the result is the sum over the 4096 features `k` of `x (b, s, k) * w (o, k)`. Both programs are
  shown to compute this function of the first argument and the sign of the second.
-/
import Idealize.ShloMosaic.Lib.ValueIdx

noncomputable section

namespace Cert.Spec

open Idealize.ShloMosaic Idealize.ShloMosaic.ValueIdx

/-- `x · wᵀ` over the last axis of `x`. -/
def linear (x : (⟨3, ![2, 4096, 4096]⟩ : Shape).Idx → EReal) (w : (⟨2, ![16384, 4096]⟩ : Shape).Idx → EReal) :
    (⟨3, ![2, 4096, 16384]⟩ : Shape).Idx → EReal :=
  fun i => ∑ k : Fin 4096, x (ix3 (i 0) (i 1) k) * w (ix2 (i 2) k)

end Cert.Spec

end
-- ==== Proof.KernelValue.lean ====
/-
  What the idealized kernel computes.

  Over the extended reals the accumulator after the point at position `n`, at entry `(p, q)`, is the sum of the first
  `n % 4 + 1` column blocks' shares of the entry in row `1024·(n/32) + p`, column `2048·((n/4)%8) + q` of `X · Wᵀ`, where
  `X` is the left array and `W` the right one: it restarts from zero at the first point of each run of four and grows by
  one share per point. At the last point of a run all four shares are in, which is the whole 4096-term sum; that is
  what the point writes back, the 64 written blocks tile the [8192, 16384] result, and the line after the region
  reshapes it to [2, 4096, 16384].
-/
import proofs.«168095_j31825707663462_1_alg».proof.Proof.Blocks
import proofs.«168095_j31825707663462_1_alg».proof.Proof.Payload
import proofs.«168095_j31825707663462_1_alg».proof.Proof.Linear

noncomputable section

namespace Cert.KernelIdeal.RunValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Fold Cert.KernelIdeal.Blocks Cert.KernelIdeal.Payload
open Cert.Spec

variable (m : (ℓ : Loc nD τ sig) → Buf (Elt Ideal) ℓ) (ρ : Dev nD → PrngReg)

/-- The accumulator after position `n`, at entry `(p, q)`: the first `n % 4 + 1` shares. -/
theorem accAt_at (c : Dev nD) : ∀ (n : ℕ) (h : n < cfg0.N) (p : Fin 1024) (q : Fin 2048),
    accAt m c n h (ix2 p q)
      = acc (xarr m c) (warr m c) (rowOf (n / 32) p.val) (colOf ((n / 4) % 8) q.val) (n % 4 + 1)
  | 0, h, p, q => by
    show k0_pay2 (F := Ideal) (xblk m c ⟨0, h⟩) (wblk m c ⟨0, h⟩) (k0_pay1 (F := Ideal)) (ix2 p q) = _
    rw [pay2_at, pay1_at, zero_add,
      block_dot (xarr m c) (warr m c) (xblk m c ⟨0, h⟩) (wblk m c ⟨0, h⟩) (0 / 32) ((0 / 4) % 8) (0 % 4)
        (fun p kk => xblk_at m c ⟨0, h⟩ p kk) (fun q kk => wblk_at m c ⟨0, h⟩ q kk) p q]
    show _ = acc _ _ _ _ (0 + 1)
    rw [acc_succ, acc_zero, zero_add]
  | n + 1, h, p, q => by
    rw [accAt_succ, pay2_at,
      block_dot (xarr m c) (warr m c) (xblk m c ⟨n + 1, h⟩) (wblk m c ⟨n + 1, h⟩) ((n + 1) / 32) (((n + 1) / 4) % 8) ((n + 1) % 4)
        (fun p kk => xblk_at m c ⟨n + 1, h⟩ p kk) (fun q kk => wblk_at m c ⟨n + 1, h⟩ q kk) p q]
    by_cases h0 : (n + 1) % 4 = 0
    · rw [if_pos h0, pay1_at, zero_add, h0]
      show _ = acc _ _ _ _ (0 + 1)
      rw [acc_succ, acc_zero, zero_add]
    · rw [if_neg h0, accAt_at c n (Nat.lt_of_succ_lt h) p q]
      have e1 : n / 32 = (n + 1) / 32 := by omega
      have e2 : (n / 4) % 8 = ((n + 1) / 4) % 8 := by omega
      have e3 : n % 4 + 1 = (n + 1) % 4 := by omega
      rw [e1, e2, e3, ← acc_succ]

/-- The same at any index of the block. -/
theorem accAt_idx (c : Dev nD) (n : ℕ) (h : n < cfg0.N) (j : S1024x2048.Idx) :
    accAt m c n h j
      = acc (xarr m c) (warr m c) (rowOf (n / 32) (j 0).val) (colOf ((n / 4) % 8) (j 1).val) (n % 4 + 1) := by
  rw [eq_ix2 j]
  exact accAt_at m c n h (j 0) (j 1)

/-- The region's result array: entry `(r, o)` is the whole 4096-term sum. -/
def result (c : Dev nD) : Buf (Elt Ideal) ((c : Thread nD τ).loc main_v4) :=
  fun j : S8192x16384.Idx => whole (xarr m c) (warr m c) (j 0) (j 1)

/-- A point that writes back (the last of a run of four) writes its block of `result`. -/
theorem flushed_eq (c : Dev nD) (t : Fin cfg0.N) (hf : (cfg0.win 2).flush t = true) :
    (dats m 0 c).flushed 2 t = ((cfg0.win 2).blk t).view.read (Elt Ideal) (result m c) := by
  have h3 : t.val % 4 = 3 := (flush0_2 t).mp hf
  obtain ⟨-, -, -, -, e0, e1⟩ := idx_facts t
  have hN := lt_N t
  show (cfg0.win 2).cut (grid0.coords t) ((dats m 0 c).after 2 t) = _
  rw [after0_2, out_eq m c t h3]
  funext j
  show accAt m c t.val t.isLt j = result m c (((cfg0.win 2).blk t).view.emb j)
  refine (accAt_idx m c t.val t.isLt j).trans ?_
  rw [h3]
  show acc _ _ _ _ 4 = _
  rw [acc_four]
  have hj0 : (j 0).val < 1024 := (j 0).isLt
  have hj1 : (j 1).val < 2048 := (j 1).isLt
  show whole _ _ _ _ = whole _ _ ((((cfg0.win 2).blk t).view.emb j) 0) ((((cfg0.win 2).blk t).view.emb j) 1)
  congr 1
  · apply Fin.ext
    show (1024 * (t.val / 32) + (j 0).val) % 8192 = win0_2.index t (0 : Fin 2) * 1024 + 1 * (j 0).val
    rw [e0]; omega
  · apply Fin.ext
    show (2048 * ((t.val / 4) % 8) + (j 1).val) % 16384 = win0_2.index t (1 : Fin 2) * 2048 + 1 * (j 1).val
    rw [e1]; omega

/-- Every entry of the result lies in the block of some point that writes back: row block `r / 1024`, column block
    `o / 2048`, last column block of the contraction. -/
theorem cover (c : Dev nD) (i : S8192x16384.Idx) :
    ∃ t : Fin cfg0.N, (cfg0.win 2).flush t = true ∧ i ∈ ((cfg0.win 2).blk t).view.set := by
  have hi0 : (i 0).val < 8192 := (i 0).isLt
  have hi1 : (i 1).val < 16384 := (i 1).isLt
  have hN : cfg0.N = 256 := N_0
  have hlt : 32 * ((i 0).val / 1024) + 4 * ((i 1).val / 2048) + 3 < cfg0.N := by rw [hN]; omega
  refine ⟨⟨32 * ((i 0).val / 1024) + 4 * ((i 1).val / 2048) + 3, hlt⟩, (flush0_2 _).mpr (by show (32 * ((i 0).val / 1024) + 4 * ((i 1).val / 2048) + 3) % 4 = 3; omega), ?_⟩
  obtain ⟨-, -, -, -, e0, e1⟩ := idx_facts ⟨32 * ((i 0).val / 1024) + 4 * ((i 1).val / 2048) + 3, hlt⟩
  show i ∈ ((View.whole main_v4).slice (win0_2.rect ⟨32 * ((i 0).val / 1024) + 4 * ((i 1).val / 2048) + 3, hlt⟩)).set
  rw [View.set_slice_whole, Rect.mem_set_unit]
  intro a
  match a with
  | ⟨0, _⟩ =>
    show win0_2.index ⟨32 * ((i 0).val / 1024) + 4 * ((i 1).val / 2048) + 3, hlt⟩ (0 : Fin 2) * 1024 ≤ (i 0).val ∧ (i 0).val < win0_2.index ⟨32 * ((i 0).val / 1024) + 4 * ((i 1).val / 2048) + 3, hlt⟩ (0 : Fin 2) * 1024 + 1024
    rw [e0]
    show (32 * ((i 0).val / 1024) + 4 * ((i 1).val / 2048) + 3) / 32 * 1024 ≤ (i 0).val ∧ (i 0).val < (32 * ((i 0).val / 1024) + 4 * ((i 1).val / 2048) + 3) / 32 * 1024 + 1024
    omega
  | ⟨1, _⟩ =>
    show win0_2.index ⟨32 * ((i 0).val / 1024) + 4 * ((i 1).val / 2048) + 3, hlt⟩ (1 : Fin 2) * 2048 ≤ (i 1).val ∧ (i 1).val < win0_2.index ⟨32 * ((i 0).val / 1024) + 4 * ((i 1).val / 2048) + 3, hlt⟩ (1 : Fin 2) * 2048 + 2048
    rw [e1]
    show (32 * ((i 0).val / 1024) + 4 * ((i 1).val / 2048) + 3) / 4 % 8 * 2048 ≤ (i 1).val ∧ (i 1).val < (32 * ((i 0).val / 1024) + 4 * ((i 1).val / 2048) + 3) / 4 % 8 * 2048 + 2048
    omega

/-- So after the region its result array holds `result`. -/
theorem final (c : Dev nD) : (dats m 0 c).arrAt 2 cfg0.N = result m c :=
  (dats m 0 c).arrAt_eq_of_cover 2 (result m c) (flushed_eq m c) (cover c)

/-- The program's result array: `result` with its leading axis split in two. -/
def out (c : Dev nD) : Buf (Elt Ideal) ((c : Thread nD τ).loc main_v5) :=
  shapeCast S2x4096x16384 (result m c) shapeCasts_S8192x16384_S2x4096x16384

/-- The line after the region leaves it in the program's result buffer. -/
theorem tail_eq (c : Dev nD) :
    Pipeline.afterTail₀ cfgs (dats m) 0 (V0 m) [hostOps1] c main_v5 = out m c := by
  unfold Pipeline.afterTail₀
  show StableHlo.after hostOps1 _ (Proc.devRef .tc main_v5) = _
  after_results
  exact Eq.trans rfl (congrArg (fun v => shapeCast S2x4096x16384 v shapeCasts_S8192x16384_S2x4096x16384)
    ((Pipeline.withArrays_arr spec0 launch0.win.arr_inj c (V0 m c) (fun w => (dats m 0 c).arrAt w cfg0.N) 2).trans (final m c)))

/-- The kernel's run, read: its result buffer at `out`, its arguments unchanged. -/
theorem run : θ_run defs (onTc (τ := τ) (main (F := Ideal))) ⟨m, fun _ => 0, ρ⟩ fun r => ∀ c : Dev nD,
      r.2.mem ((c : Thread nD τ).loc main_v5) = out m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v5 (Pipeline.mem_restRefs_of main_v5 (by decide) (by decide))).trans (tail_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

/-- That result, entry by entry, is the layer's sum over the first argument and the sign of the second: row
    `4096·b + s` of the left array is row `(b, s)` of the first argument, and the right array is the sign array. -/
theorem value_eq (c : Dev nD) :
    out m c = linear (m ((c : Thread nD τ).loc main_arg0)) (Host.sign (F := Ideal) (φ := .f32) (m ((c : Thread nD τ).loc main_arg1))) := by
  unfold out
  funext i
  obtain ⟨b, s, o, rfl⟩ : ∃ (b : Fin 2) (s : Fin 4096) (o : Fin 16384), i = ix3 b s o := ⟨i 0, i 1, i 2, eq_ix3 i⟩
  have hb : b.val < 2 := b.isLt
  have hs : s.val < 4096 := s.isLt
  have hr : 4096 * b.val + s.val < 8192 := by omega
  refine (shapeCast_apply (s := S8192x16384) (t := S2x4096x16384) (result m c) shapeCasts_S8192x16384_S2x4096x16384
    (ix3 b s o) (ix2 ⟨4096 * b.val + s.val, hr⟩ o) (by
      rw [Shape.rowMajor_val_two, Shape.rowMajor_val_three]
      show (4096 * b.val + s.val) * 16384 + o.val = (b.val * 4096 + s.val) * 16384 + o.val
      omega)).trans ?_
  show whole (xarr m c) (warr m c) ⟨4096 * b.val + s.val, hr⟩ o = _
  unfold whole linear
  refine Finset.sum_congr rfl fun k _ => ?_
  congr 1
  · rw [xarr_eq]
    exact shapeCast_apply (s := S2x4096x4096) (t := S8192x4096) _ shapeCasts_S2x4096x4096_S8192x4096
      (ix2 ⟨4096 * b.val + s.val, hr⟩ k) (ix3 b s k) (by
        rw [Shape.rowMajor_val_three, Shape.rowMajor_val_two]
        show (b.val * 4096 + s.val) * 4096 + k.val = (4096 * b.val + s.val) * 4096 + k.val
        omega)

end Cert.KernelIdeal.RunValue

end
-- ==== Proof.RefValue.lean ====
/-
  What the idealized reference computes: its one contraction, read at an entry, is the layer's sum — the left factor
  the first argument at `(b, s, k)`, the right factor the sign of the second argument at `(o, k)`.
-/
import proofs.«168095_j31825707663462_1_alg».proof.Proof.Gen.ReferenceIdeal.Read
import proofs.«168095_j31825707663462_1_alg».proof.Proof.Linear

noncomputable section

namespace Cert.ReferenceIdeal.RefValue

open Idealize.ShloMosaic Idealize.ShloMosaic.TcCoe Idealize.ShloMosaic.ValueIdx
open Cert.ReferenceIdeal Cert.ReferenceIdeal.Read

/-- The reference's result is `linear` of the first argument and the sign of the second. -/
theorem ref_eq (x0 : (⟨S2x4096x4096, .f32⟩ : BufTy).Contents (Elt Ideal)) (x1 : (⟨S16384x4096, .f32⟩ : BufTy).Contents (Elt Ideal)) :
    val_main_v1 (F := Ideal) x0 x1 = Cert.Spec.linear x0 (Host.sign (F := Ideal) (φ := .f32) x1) := by
  funext i
  rw [val_main_v1_apply]
  have el : ∀ k : Fin 4096, lidx_main_v1 i k = ix3 (i 0) (i 1) k := fun k => funext fun a => by
    match a with
    | ⟨0, _⟩ => rfl
    | ⟨1, _⟩ => rfl
    | ⟨2, _⟩ => rfl
  have er : ∀ k : Fin 4096, ridx_main_v1 i k = ix2 (i 2) k := fun k => funext fun a => by
    match a with
    | ⟨0, _⟩ => rfl
    | ⟨1, _⟩ => rfl
  simp only [el, er]
  rfl

end Cert.ReferenceIdeal.RefValue

end
-- ==== Proof.lean ====
/-
  A linear layer with ternary weights: `out[b, s, o] = Σ_i x[b, s, i] · sign(weight[o, i])`, the sum over 4096 features.

  The kernel merges the two leading axes of `x`, takes the sign of `weight`, and multiplies tile by tile on a grid of
  (8 row blocks) × (8 output column blocks) × (4 blocks of 1024 features): an accumulator is reset at the first feature
  block, each point adds the product of its two tiles, and at the last feature block the accumulator is written out as
  one [1024, 2048] tile of the result, which is then split back into [2, 4096, 16384]. The reference takes the sign of
  `weight` and contracts `x` with it in one step. Over the extended reals the narrowing of the tiles to a shorter float
  format is the identity and both programs apply the same sign function, so the kernel's entry is the 4096-term sum
  taken in four consecutive blocks of 1024 terms starting from zero, and the reference's is the same sum taken at
  once. The two agree by associativity and commutativity of addition alone, so the precondition (finite inputs) is not
  used for the values.

  The frames of the kernel and of its idealization are the generated ones; the reference's frame is its generated run
  with the result dropped; no rewrite was applied when idealizing, so nothing is owed for it.
-/
import proofs.«168095_j31825707663462_1_alg».proof.Defs
import proofs.«168095_j31825707663462_1_alg».proof.Proof.Gen.Kernel
import proofs.«168095_j31825707663462_1_alg».proof.Proof.Gen.Kernel.Skeleton
import proofs.«168095_j31825707663462_1_alg».proof.Proof.Gen.Kernel.Launch
import proofs.«168095_j31825707663462_1_alg».proof.Proof.Gen.Kernel.Points
import proofs.«168095_j31825707663462_1_alg».proof.Proof.Gen.Kernel.Frame
import proofs.«168095_j31825707663462_1_alg».proof.Proof.Gen.KernelIdeal
import proofs.«168095_j31825707663462_1_alg».proof.Proof.Gen.KernelIdeal.Skeleton
import proofs.«168095_j31825707663462_1_alg».proof.Proof.Gen.KernelIdeal.Launch
import proofs.«168095_j31825707663462_1_alg».proof.Proof.Gen.KernelIdeal.Points
import proofs.«168095_j31825707663462_1_alg».proof.Proof.Gen.KernelIdeal.Frame
import proofs.«168095_j31825707663462_1_alg».proof.Proof.Gen.ReferenceIdeal
import proofs.«168095_j31825707663462_1_alg».proof.Proof.Gen.Pre_finite_inputs
import proofs.«168095_j31825707663462_1_alg».proof.Proof.Gen.ReferenceIdeal.Run
import proofs.«168095_j31825707663462_1_alg».proof.Proof.Gen.ReferenceIdeal.Read
import proofs.«168095_j31825707663462_1_alg».proof.Proof.KernelValue
import proofs.«168095_j31825707663462_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the layer's function of the first argument and the sign of the second: the
    kernel by its run read entry by entry, the reference by its one contraction, on arguments that agree. -/
theorem algebraic : Cert.algebraic_KernelIdeal_ReferenceIdeal := by
  intro m ρ m' ρ' _ hagree
  refine ⟨fun c => Cert.KernelIdeal.RunValue.out m c, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.ReferenceIdeal.RefValue.ref_eq, (hagree c).1, (hagree c).2]
  exact (Cert.KernelIdeal.RunValue.value_eq m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
